-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8192 : Shape := ⟨2, ![64, 8192]⟩
abbrev S8192x8192 : Shape := ⟨2, ![8192, 8192]⟩
abbrev S8192 : Shape := ⟨1, ![8192]⟩
abbrev S_ : Shape := ⟨0, ![]⟩

class Facts : Prop where
  bcast_S_S64x8192 : S_.BroadcastsInDim S64x8192 (![] : Fin 0 → Fin S64x8192.rank)
  reducesTo_S64x8192_S_d0_1 : S64x8192.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn_part1 {F : FTy → Type} [FloatOps F] (main_arg6 : FVec F S8192 .f32) (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  let main_v19 : FVec F S8192 .f32 := Host.absf main_arg6
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  main_v23

def fn {F : FTy → Type} [FloatOps F] (main_arg0 : FVec F S64x8192 .f32) (main_arg1 : IVec S8192x8192 32) (main_arg2 : FVec F S8192 .f32) (main_arg3 : FVec F S8192 .f32) (main_arg4 : IVec S8192 32) (main_arg5 : FVec F S8192 .f32) (main_arg6 : FVec F S8192 .f32) : IVec S_ 1 :=
  let main_v0 : FVec F S64x8192 .f32 := Host.absf main_arg0
  let main_cst : FVec F S_ .f32 := constant S_ .f32 0x7F800000#32
  let main_v1 : FVec F S64x8192 .f32 := broadcastInDim S64x8192 ![] bcast_S_S64x8192 main_cst
  let main_v2 : IVec S64x8192 1 := cmpf .olt main_v0 main_v1
  let main_c : IVec S_ 1 := constantI S_ 1 1#1
  let main_v3 : IVec S_ 1 := (fun x v => Host.reduce IntOp.andi x v reducesTo_S64x8192_S_d0_1 h_S_) main_v2 main_c
  let main_v4 : FVec F S8192 .f32 := Host.absf main_arg2
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S8192 .f32 := Host.absf main_arg3
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192 .f32 := Host.absf main_arg5
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_arg6 main_v13 main_v16
-- ==== Kernel.lean ====
abbrev S64x8192 : Shape := ⟨2, ![64, 8192]⟩
abbrev S8192x8192 : Shape := ⟨2, ![8192, 8192]⟩
abbrev S8192 : Shape := ⟨1, ![8192]⟩
abbrev S8192x1 : Shape := ⟨2, ![8192, 1]⟩
abbrev S1x8192 : Shape := ⟨2, ![1, 8192]⟩
abbrev S64x1024 : Shape := ⟨2, ![64, 1024]⟩
abbrev S1024x1024 : Shape := ⟨2, ![1024, 1024]⟩
abbrev S1024x1 : Shape := ⟨2, ![1024, 1]⟩
abbrev S1x1024 : Shape := ⟨2, ![1, 1024]⟩

abbrev nBuf : Space → Nat
  | .hbm => 13
  | .vmem => 17
  | .smem => 0
  | _ => 0

abbrev bufTy : (tb : Table) → Fin (tcTables nBuf tb) → BufTy
  | .hbm, ⟨0, _⟩ => ⟨S64x8192, .f32⟩
  | .hbm, ⟨1, _⟩ => ⟨S8192x8192, .i32⟩
  | .hbm, ⟨2, _⟩ => ⟨S8192, .f32⟩
  | .hbm, ⟨3, _⟩ => ⟨S8192, .f32⟩
  | .hbm, ⟨4, _⟩ => ⟨S8192, .i32⟩
  | .hbm, ⟨5, _⟩ => ⟨S8192, .f32⟩
  | .hbm, ⟨6, _⟩ => ⟨S8192, .f32⟩
  | .hbm, ⟨7, _⟩ => ⟨S8192x1, .f32⟩
  | .hbm, ⟨8, _⟩ => ⟨S8192x1, .f32⟩
  | .hbm, ⟨9, _⟩ => ⟨S1x8192, .i32⟩
  | .hbm, ⟨10, _⟩ => ⟨S1x8192, .f32⟩
  | .hbm, ⟨11, _⟩ => ⟨S1x8192, .f32⟩
  | .hbm, ⟨12, _⟩ => ⟨S64x8192, .f32⟩
  | .local _ .vmem, ⟨0, _⟩ => ⟨S64x1024, .f32⟩
  | .local _ .vmem, ⟨1, _⟩ => ⟨S64x1024, .f32⟩
  | .local _ .vmem, ⟨2, _⟩ => ⟨S1024x1024, .i32⟩
  | .local _ .vmem, ⟨3, _⟩ => ⟨S1024x1024, .i32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1x1024, .i32⟩
  | .local _ .vmem, ⟨9, _⟩ => ⟨S1x1024, .i32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | _, _ => ⟨S64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v22 : BitVec 1 := Scalar.cmpi .eq arg1 c7_i32
  let v23 : BitVec 32 := Scalar.extui v22
  let c0_i32_12 : BitVec 32 := 0#32
  let v24 : BitVec 1 := Scalar.cmpi .ne v23 c0_i32_12
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S8192_S8192x1 : S8192.ShapeCasts S8192x1
  shapeCasts_S8192_S1x8192 : S8192.ShapeCasts S1x8192
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1024x1024_S1024x1024_0_0 : ∀ a, (![0, 0] : Fin 2 → Nat) a + S1024x1024.size a ≤ S1024x1024.size a
  h_S1024x1024 : 0 < S1024x1024.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S64x1024 : S1x1024.Broadcasts S64x1024
  dot_S64x1024_S1024x1024_S64x1024_1_1_0_0_n_n_wf : DotDims.WF S64x1024 S1024x1024 S64x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x1024.size a ≤ S64x8192.size a
  hwx0_0 : ∀ i : grid0.Coords, EltTy.bits .f32 = 32 ∨ (Rect.block (s := S64x8192) S64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x8192.size a
  hwx0_1 : ∀ i : grid0.Coords, EltTy.bits .i32 = 32 ∨ (Rect.block (s := S8192x8192) S1024x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x8192.size a
  hwx0_4 : ∀ i : grid0.Coords, EltTy.bits .i32 = 32 ∨ (Rect.block (s := S1x8192) S1x1024.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x8192.size a
  hwx0_5 : ∀ i : grid0.Coords, EltTy.bits .f32 = 32 ∨ (Rect.block (s := S1x8192) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x8192.size a
  hwx0_6 : ∀ i : grid0.Coords, EltTy.bits .f32 = 32 ∨ (Rect.block (s := S1x8192) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x1024.size a ≤ S64x8192.size a
  hwx0_7 : ∀ i : grid0.Coords, EltTy.bits .f32 = 32 ∨ (Rect.block (s := S64x8192) S64x1024.size (cc0_transform_7 i) (hinb0_7 i)).WholeWords (EltTy.packing .f32)

variable [Facts₀]

def dot_S64x1024_S1024x1024_S64x1024_1_1_0_0_n_n : DotDims S64x1024 S1024x1024 S64x1024 where
  lhsContracting := [1]
  rhsContracting := [1]
  lhsNonContracting := [0]
  rhsNonContracting := [0]
  lhsBatch := []
  rhsBatch := []
  wf := dot_S64x1024_S1024x1024_S64x1024_1_1_0_0_n_n_wf

abbrev win0_0 : Pipeline.Window sig grid0 :=
  Pipeline.Window.ofSpec (Memref.whole main_arg0) S64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5) S64x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S64x8192 : Shape := ⟨2, ![64, 8192]⟩
abbrev S8192x8192 : Shape := ⟨2, ![8192, 8192]⟩
abbrev S8192 : Shape := ⟨1, ![8192]⟩
abbrev S8192x1 : Shape := ⟨2, ![8192, 1]⟩
abbrev S1x8192 : Shape := ⟨2, ![1, 8192]⟩

abbrev nBuf : Space → Nat
  | .hbm => 21
  | .vmem => 0
  | .smem => 0
  | _ => 0

abbrev bufTy : (tb : Table) → Fin (tcTables nBuf tb) → BufTy
  | .hbm, ⟨0, _⟩ => ⟨S64x8192, .f32⟩
  | .hbm, ⟨1, _⟩ => ⟨S8192x8192, .i32⟩
  | .hbm, ⟨2, _⟩ => ⟨S8192, .f32⟩
  | .hbm, ⟨3, _⟩ => ⟨S8192, .f32⟩
  | .hbm, ⟨4, _⟩ => ⟨S8192, .i32⟩
  | .hbm, ⟨5, _⟩ => ⟨S8192, .f32⟩
  | .hbm, ⟨6, _⟩ => ⟨S8192, .f32⟩
  | .hbm, ⟨7, _⟩ => ⟨S8192x8192, .f32⟩
  | .hbm, ⟨8, _⟩ => ⟨S8192x1, .f32⟩
  | .hbm, ⟨9, _⟩ => ⟨S8192x8192, .f32⟩
  | .hbm, ⟨10, _⟩ => ⟨S8192x8192, .f32⟩
  | .hbm, ⟨11, _⟩ => ⟨S8192x1, .f32⟩
  | .hbm, ⟨12, _⟩ => ⟨S8192x8192, .f32⟩
  | .hbm, ⟨13, _⟩ => ⟨S8192x8192, .f32⟩
  | .hbm, ⟨14, _⟩ => ⟨S64x8192, .f32⟩
  | .hbm, ⟨15, _⟩ => ⟨S8192, .f32⟩
  | .hbm, ⟨16, _⟩ => ⟨S8192, .f32⟩
  | .hbm, ⟨17, _⟩ => ⟨S8192, .f32⟩
  | .hbm, ⟨18, _⟩ => ⟨S1x8192, .f32⟩
  | .hbm, ⟨19, _⟩ => ⟨S64x8192, .f32⟩
  | .hbm, ⟨20, _⟩ => ⟨S64x8192, .f32⟩
  | _, _ => ⟨S64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S64x8192_0_1 : S1x8192.BroadcastsInDim S64x8192 (![0, 1] : Fin 2 → Fin S64x8192.rank)
  dot_S64x8192_S8192x8192_S64x8192_1_1_0_0_n_n_wf : DotDims.WF S64x8192 S8192x8192 S64x8192 [1] [1] [0] [0] [] []

variable [Facts₀]

def dot_S64x8192_S8192x8192_S64x8192_1_1_0_0_n_n : DotDims S64x8192 S8192x8192 S64x8192 where
  lhsContracting := [1]
  rhsContracting := [1]
  lhsNonContracting := [0]
  rhsNonContracting := [0]
  lhsBatch := []
  rhsBatch := []
  wf := dot_S64x8192_S8192x8192_S64x8192_1_1_0_0_n_n_wf

class Facts : Prop extends Facts₀ where

variable [Facts]
-- ==== Proof.Spec.lean ====
/-
  The quantized linear layer as one function of its arguments, and the one law of sums its two spellings differ by.

  With W the integer weights, s and z the per-output-channel scale and zero point, the dequantized weight is
  w(o, i) = W(o, i) · s(o) + z(o); the bias is b(o) = bq(o) · bs(o) + bz(o); and the layer's value at (r, o) is
  Σ_i X(r, i) · w(o, i) + b(o), the sum over all 8192 input features. A sum over 8192 terms is the sum of its eight
  consecutive blocks of 1024 terms: only commutativity and associativity of addition are used, so the law holds on
  the extended reals without any finiteness.
-/
import Idealize.ShloMosaic.PureOps.Ideal
import Idealize.ShloMosaic.Lib.ValueIdx

noncomputable section

namespace Cert.QuantLinear

open Idealize.ShloMosaic Idealize.ShloMosaic.ValueIdx

/-- Column k of block s (blocks of 1024 along the 8192 input features); the block number is read modulo 8. -/
def col (n : ℕ) (j : Fin 1024) : Fin 8192 := ⟨(n % 8) * 1024 + j.val, by have := j.isLt; have := Nat.mod_lt n (by decide : 0 < 8); omega⟩

/-- Row q of the row block n / 8 (blocks of 1024 along the 8192 output channels); the block number is read modulo 8. -/
def row (n : ℕ) (q : Fin 1024) : Fin 8192 := ⟨(n / 8 % 8) * 1024 + q.val, by have := q.isLt; have := Nat.mod_lt (n / 8) (by decide : 0 < 8); omega⟩

theorem col_val (n : ℕ) (j : Fin 1024) : (col n j).val = (n % 8) * 1024 + j.val := rfl
theorem row_val (n : ℕ) (q : Fin 1024) : (row n q).val = (n / 8 % 8) * 1024 + q.val := rfl

/-- The dequantized weight w(o, i) = W(o, i) · s(o) + z(o). -/
def deq (W : (⟨2, ![8192, 8192]⟩ : Shape).Idx → BitVec 32) (s z : (⟨1, ![8192]⟩ : Shape).Idx → EReal) (o i : Fin 8192) : EReal :=
  FloatOps.sitofp (F := Ideal) .f32 (W (ix2 o i)) * s (ix1 o) + z (ix1 o)

/-- The dequantized bias b(o) = bq(o) · bs(o) + bz(o). -/
def bias (bq : (⟨1, ![8192]⟩ : Shape).Idx → BitVec 32) (bs bz : (⟨1, ![8192]⟩ : Shape).Idx → EReal) (o : Fin 8192) : EReal :=
  FloatOps.sitofp (F := Ideal) .f32 (bq (ix1 o)) * bs (ix1 o) + bz (ix1 o)

/-- The layer's value at row r and output channel o. -/
def out (X : (⟨2, ![64, 8192]⟩ : Shape).Idx → EReal) (W : (⟨2, ![8192, 8192]⟩ : Shape).Idx → BitVec 32)
    (s z : (⟨1, ![8192]⟩ : Shape).Idx → EReal) (bq : (⟨1, ![8192]⟩ : Shape).Idx → BitVec 32)
    (bs bz : (⟨1, ![8192]⟩ : Shape).Idx → EReal) (r : Fin 64) (o : Fin 8192) : EReal :=
  (∑ k : Fin 8192, X (ix2 r k) * deq W s z o k) + bias bq bs bz o

/-- The layer's whole [64, 8192] result. -/
def result (X : (⟨2, ![64, 8192]⟩ : Shape).Idx → EReal) (W : (⟨2, ![8192, 8192]⟩ : Shape).Idx → BitVec 32)
    (s z : (⟨1, ![8192]⟩ : Shape).Idx → EReal) (bq : (⟨1, ![8192]⟩ : Shape).Idx → BitVec 32)
    (bs bz : (⟨1, ![8192]⟩ : Shape).Idx → EReal) : (⟨2, ![64, 8192]⟩ : Shape).Idx → EReal :=
  fun i => out X W s z bq bs bz (i 0) (i 1)

/-- A sum over a · b naturals is the sum over a consecutive blocks of b. -/
theorem sum_range_blocks {β : Type*} [AddCommMonoid β] (f : ℕ → β) (b : ℕ) :
    ∀ a : ℕ, ∑ s ∈ Finset.range a, ∑ j ∈ Finset.range b, f (s * b + j) = ∑ k ∈ Finset.range (a * b), f k
  | 0 => by simp
  | a + 1 => by
    rw [Finset.sum_range_succ, sum_range_blocks f b a, Nat.succ_mul, Finset.sum_range_add]

/-- The sum over all 8192 input features is the sum, over the eight blocks of a run of eight consecutive block
    numbers starting at a multiple of eight, of each block's 1024 terms. -/
theorem sum_eight_blocks {β : Type*} [AddCommMonoid β] (g : Fin 8192 → β) (b : ℕ) (hb : b % 8 = 0) :
    ∑ s ∈ Finset.range 8, ∑ j : Fin 1024, g (col (b + s) j) = ∑ k : Fin 8192, g k := by
  let f : ℕ → β := fun k => if h : k < 8192 then g ⟨k, h⟩ else 0
  have hblock : ∀ s ∈ Finset.range 8, ∑ j : Fin 1024, g (col (b + s) j) = ∑ j ∈ Finset.range 1024, f (s * 1024 + j) := by
    intro s hs
    have hs8 : s < 8 := Finset.mem_range.mp hs
    rw [Finset.sum_range]
    refine Finset.sum_congr rfl fun j _ => ?_
    have hj := j.isLt
    have hlt : s * 1024 + j.val < 8192 := by omega
    show g (col (b + s) j) = if h : s * 1024 + j.val < 8192 then g ⟨s * 1024 + j.val, h⟩ else 0
    rw [dif_pos hlt]
    refine congrArg g (Fin.ext ?_)
    show (b + s) % 8 * 1024 + j.val = s * 1024 + j.val
    have : (b + s) % 8 = s := by omega
    rw [this]
  rw [Finset.sum_congr rfl hblock, sum_range_blocks f 1024 8, Finset.sum_range]
  refine Finset.sum_congr rfl fun k _ => ?_
  show (if h : k.val < 8192 then g ⟨k.val, h⟩ else 0) = g k
  rw [dif_pos k.isLt]

end Cert.QuantLinear

end
-- ==== Proof.RefValue.lean ====
/-
  The reference computes the quantized linear layer's value.

  Read at (r, o), the reference's last stage is its dot product of x's row r with the dequantized weight's row o,
  plus the dequantized bias at o: the scale and zero point reach the weight through two broadcasts that read the
  vectors at the output channel o, and the bias row reaches the result through two broadcasts that read it at o.
-/
import proofs.«131830_j43894565765814_1_alg».proof.Proof.Gen.ReferenceIdeal.Read
import proofs.«131830_j43894565765814_1_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.QuantLinear

/-- The reference's result stage is the layer's value, index by index. -/
theorem reference_eq (X : (⟨S64x8192, .f32⟩ : BufTy).Contents (Elt Ideal)) (W : (⟨S8192x8192, .i32⟩ : BufTy).Contents (Elt Ideal))
    (s z : (⟨S8192, .f32⟩ : BufTy).Contents (Elt Ideal)) (bq : (⟨S8192, .i32⟩ : BufTy).Contents (Elt Ideal))
    (bs bz : (⟨S8192, .f32⟩ : BufTy).Contents (Elt Ideal)) :
    val_main_v13 (F := Ideal) X W s z bq bs bz = result X W s z bq bs bz := by
  funext i
  obtain ⟨r, o, rfl⟩ : ∃ (r : Fin 64) (o : Fin 8192), i = ix2 r o := ⟨i 0, i 1, eq_ix2 i⟩
  have hl : ∀ k : Fin 8192, lidx_main_v7 (ix2 r o) k = ix2 r k := fun k => funext fun a => by
    match a with
    | ⟨0, _⟩ => rfl
    | ⟨1, _⟩ => rfl
  have hr : ∀ k : Fin 8192, ridx_main_v7 (ix2 r o) k = ix2 o k := fun k => funext fun a => by
    match a with
    | ⟨0, _⟩ => rfl
    | ⟨1, _⟩ => rfl
  have hs : ∀ k : Fin 8192, idx_main_v1 (idx_main_v2 (ix2 o k)) = ix1 o := fun k => funext fun a => by
    match a with
    | ⟨0, _⟩ => rfl
  have hz : ∀ k : Fin 8192, idx_main_v4 (idx_main_v5 (ix2 o k)) = ix1 o := fun k => funext fun a => by
    match a with
    | ⟨0, _⟩ => rfl
  have hb : idx_main_v11 (idx_main_v12 (ix2 r o)) = ix1 o := funext fun a => by
    match a with
    | ⟨0, _⟩ => rfl
  rw [val_main_v13_apply, val_main_v7_apply, val_main_v12_apply, val_main_v11_apply, hb, val_main_v10_apply,
    val_main_v9_apply, val_main_v8_apply]
  simp only [hl, hr, val_main_v6_apply, val_main_v3_apply, val_main_v0_apply, val_main_v2_apply, val_main_v1_apply,
    val_main_v5_apply, val_main_v4_apply, hs, hz]
  rfl

end Cert.ReferenceIdeal.RefValue

end
-- ==== Proof.Payload.lean ====
/-
  The kernel body's three stored values read at an index, at the ideal values.

  The accumulator's reset value is zero everywhere. The accumulation step adds, to the accumulator at (p, q), the
  block product Σ_j x(p, j) · (W(q, j) · s(q) + z(q)) over the block's 1024 columns: the matrix unit contracts the
  last axis of both operands, the narrowing to bf16 is the identity at the ideal values, and the scale and zero
  point columns [1024, 1] are read at their one column. The epilogue adds the dequantized bias row to the
  accumulator.
-/
import proofs.«131830_j43894565765814_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- A column [a, 1] broadcast across the columns of [a, b] reads, at (p, q), the column at p. -/
theorem column_broadcast_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## The block product: both operands contracted on their last axis -/

theorem lhs_block_0 (i : S64x1024.Idx) (k : dot_S64x1024_S1024x1024_S64x1024_1_1_0_0_n_n.contr.Idx) :
    (dot_S64x1024_S1024x1024_S64x1024_1_1_0_0_n_n.lhsIdx i k 0).val = (i 0).val := by
  unfold DotDims.lhsIdx
  rw [dif_neg (show ¬(0 : Fin S64x1024.rank) ∈ dot_S64x1024_S1024x1024_S64x1024_1_1_0_0_n_n.lhsBatch by decide), dif_pos (show (0 : Fin S64x1024.rank) ∈ dot_S64x1024_S1024x1024_S64x1024_1_1_0_0_n_n.lhsNonContracting by decide)]
  rfl
theorem lhs_block_1 (i : S64x1024.Idx) (k : dot_S64x1024_S1024x1024_S64x1024_1_1_0_0_n_n.contr.Idx) :
    (dot_S64x1024_S1024x1024_S64x1024_1_1_0_0_n_n.lhsIdx i k 1).val = (k ⟨0, by decide⟩).val :=
  dot_S64x1024_S1024x1024_S64x1024_1_1_0_0_n_n.lhsIdx_val_of_single rfl i k
theorem rhs_block_0 (i : S64x1024.Idx) (k : dot_S64x1024_S1024x1024_S64x1024_1_1_0_0_n_n.contr.Idx) :
    (dot_S64x1024_S1024x1024_S64x1024_1_1_0_0_n_n.rhsIdx i k 0).val = (i 1).val := by
  unfold DotDims.rhsIdx
  rw [dif_neg (show ¬(0 : Fin S1024x1024.rank) ∈ dot_S64x1024_S1024x1024_S64x1024_1_1_0_0_n_n.rhsBatch by decide), dif_pos (show (0 : Fin S1024x1024.rank) ∈ dot_S64x1024_S1024x1024_S64x1024_1_1_0_0_n_n.rhsNonContracting by decide)]
  rfl
theorem rhs_block_1 (i : S64x1024.Idx) (k : dot_S64x1024_S1024x1024_S64x1024_1_1_0_0_n_n.contr.Idx) :
    (dot_S64x1024_S1024x1024_S64x1024_1_1_0_0_n_n.rhsIdx i k 1).val = (k ⟨0, by decide⟩).val :=
  dot_S64x1024_S1024x1024_S64x1024_1_1_0_0_n_n.rhsIdx_val_of_single rfl i k

/-- The matrix unit's product into the zero accumulator, at (p, q): the sum over the 1024 columns of the left
    operand's row p against the right operand's row q. -/
theorem block_product_apply (x : FVec Ideal S64x1024 .bf16) (w : FVec Ideal S1024x1024 .bf16) (p : Fin 64) (q : Fin 1024) :
    FloatOps.matmul (F := Ideal) dot_S64x1024_S1024x1024_S64x1024_1_1_0_0_n_n none x w (constant (F := Ideal) S64x1024 .f32 0x00000000#32) (ix2 p q)
      = ∑ k : Fin 1024, x (ix2 p k) * w (ix2 q k) := by
  rw [Ideal.matmul_constant_zero_apply, ← Equiv.sum_comp (contrEquiv1 dot_S64x1024_S1024x1024_S64x1024_1_1_0_0_n_n 1024 rfl rfl).symm]
  refine Finset.sum_congr rfl fun k _ => ?_
  have hk := contrEquiv1_symm_val dot_S64x1024_S1024x1024_S64x1024_1_1_0_0_n_n 1024 rfl rfl k
  have el : dot_S64x1024_S1024x1024_S64x1024_1_1_0_0_n_n.lhsIdx (ix2 p q) ((contrEquiv1 dot_S64x1024_S1024x1024_S64x1024_1_1_0_0_n_n 1024 rfl rfl).symm k) = ix2 p k := funext fun a => Fin.ext (by
    match a with
    | ⟨0, _⟩ => exact lhs_block_0 _ _
    | ⟨1, _⟩ => exact (lhs_block_1 _ _).trans hk)
  have er : dot_S64x1024_S1024x1024_S64x1024_1_1_0_0_n_n.rhsIdx (ix2 p q) ((contrEquiv1 dot_S64x1024_S1024x1024_S64x1024_1_1_0_0_n_n 1024 rfl rfl).symm k) = ix2 q k := funext fun a => Fin.ext (by
    match a with
    | ⟨0, _⟩ => exact rhs_block_0 _ _
    | ⟨1, _⟩ => exact (rhs_block_1 _ _).trans hk)
  rw [el, er]

/-! ## The three stored values -/

/-- The reset value: zero everywhere. -/
theorem reset_apply (p : Fin 64) (q : Fin 1024) : k0_pay1 (F := Ideal) (ix2 p q) = 0 := by
  unfold k0_pay1
  rw [shapeCast_self]
  exact Ideal.ofBits_zero_f32

/-- The accumulation step at (p, q): the accumulator plus the block product of x's row p with the dequantized
    weight block's row q. -/
theorem step_apply (w : Vec Ideal S1024x1024 .i32) (s z : Vec Ideal S1024x1 .f32) (x acc : Vec Ideal S64x1024 .f32)
    (p : Fin 64) (q : Fin 1024) :
    k0_pay2 (F := Ideal) w s z x acc (ix2 p q)
      = acc (ix2 p q) + ∑ k : Fin 1024, x (ix2 p k) *
          (FloatOps.sitofp (F := Ideal) .f32 (w (ix2 q k)) * s (ix2 q (0 : Fin 1)) + z (ix2 q (0 : Fin 1))) := by
  unfold k0_pay2
  rw [shapeCast_self]
  refine congrArg (acc (ix2 p q) + ·) ?_
  refine (block_product_apply _ _ p q).trans (Finset.sum_congr rfl fun k _ => ?_)
  refine congrArg (x (ix2 p k) * ·) ?_
  show FloatOps.sitofp (F := Ideal) .f32 (w (ix2 q k)) * broadcastTo S1024x1024 (shapeCast S1024x1 s _) _ (ix2 q k)
      + broadcastTo S1024x1024 (shapeCast S1024x1 z _) _ (ix2 q k) = _
  rw [column_broadcast_apply, column_broadcast_apply, shapeCast_self, shapeCast_self]

/-- The epilogue at (p, q): the accumulator plus the dequantized bias at column q. -/
theorem epilogue_apply (bq : Vec Ideal S1x1024 .i32) (bs bz : Vec Ideal S1x1024 .f32) (acc : Vec Ideal S64x1024 .f32)
    (p : Fin 64) (q : Fin 1024) :
    k0_pay3 (F := Ideal) bq bs bz acc (ix2 p q)
      = acc (ix2 p q) + (FloatOps.sitofp (F := Ideal) .f32 (bq (ix2 (0 : Fin 1) q)) * bs (ix2 (0 : Fin 1) q) + bz (ix2 (0 : Fin 1) q)) := by
  unfold k0_pay3
  refine congrArg (acc (ix2 p q) + ·) ?_
  refine (broadcastTo_1b_ab_apply _ _ p q).trans ?_
  show FloatOps.sitofp (F := Ideal) .f32 (shapeCast S1x1024 bq _ (ix2 (0 : Fin 1) q)) * shapeCast S1x1024 bs _ (ix2 (0 : Fin 1) q)
      + shapeCast S1x1024 bz _ (ix2 (0 : Fin 1) q) = _
  rw [shapeCast_self, shapeCast_self, shapeCast_self]

end Cert.KernelIdeal.Body

end
-- ==== Proof.Pieces.lean ====
/-
  What each case of the kernel body leaves behind, as the body's stored values of the point's blocks.

  At the first point of a run (case A) the accumulator is stored as zero, read back, and stored again with the
  point's block product added: it ends as the step applied to the reset value. At the later points (cases B and C)
  it ends as the step applied to what the point before left. At the run's last point (case C) the output block
  ends as the epilogue applied to the accumulator just stored.
-/
import proofs.«131830_j43894565765814_1_alg».proof.Proof.Gen.KernelIdeal.Frame
import Idealize.ShloMosaic.Lib.Pipeline.Value
import Idealize.ShloMosaic.Lib.Tactic

set_option maxRecDepth 16384

noncomputable section

namespace Cert.KernelIdeal.Body

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- Case A leaves the accumulator at the step of the reset value. -/
theorem acc_first (c : Dev nD) (i : grid0.Coords) (arg2 : Memref sig .tc .vmem S64x1024 .f32) (harg2 : arg2.IsWhole) (arg3 : Memref sig .tc .vmem S1024x1024 .i32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1x1024 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S64x1024 .f32) (harg9 : arg9.IsWhole) (arg10 : Memref sig .tc .vmem S64x1024 .f32) (harg10 : arg10.IsWhole) (hc0 : cond0_0 i) (hc1 : ¬cond0_1 i)
    (x0 : Vec F S64x1024 .f32) (x1 : Vec F S1024x1024 .i32) (x2 : Vec F S1024x1 .f32) (x3 : Vec F S1024x1 .f32) (x4 : Vec F S1x1024 .i32) (x5 : Vec F S1x1024 .f32) (x6 : Vec F S1x1024 .f32) :
    sout0_A_0 c i arg2 harg2 arg3 harg3 arg4 harg4 arg5 harg5 arg6 harg6 arg7 harg7 arg8 harg8 arg9 harg9 arg10 harg10 hc0 hc1 x0 x1 x2 x3 x4 x5 x6 = k0_pay2 x1 x2 x3 x0 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S64x1024) hz, View.readCov_unit_zero (S := S64x1024) _ hz]
  simp only [View.readAt_eq_ld, harg2.read_unread, harg3.read_unread, harg4.read_unread, harg5.read_unread, harg6.read_unread, harg7.read_unread, harg8.read_unread, harg9.read_unread, harg10.read_unread, View.ld_unit_zero (S := S64x1024) hz, View.ld_unit_zero (S := S1024x1024) hz, View.ld_unit_zero (S := S1024x1) hz, View.ld_unit_zero (S := S1x1024) hz]

/-- Case B leaves the accumulator at the step of what the point before left. -/
theorem acc_middle (c : Dev nD) (i : grid0.Coords) (arg2 : Memref sig .tc .vmem S64x1024 .f32) (harg2 : arg2.IsWhole) (arg3 : Memref sig .tc .vmem S1024x1024 .i32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1x1024 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S64x1024 .f32) (harg9 : arg9.IsWhole) (arg10 : Memref sig .tc .vmem S64x1024 .f32) (harg10 : arg10.IsWhole) (hc0 : ¬cond0_0 i) (hc1 : ¬cond0_1 i)
    (x0 : Vec F S64x1024 .f32) (x1 : Vec F S1024x1024 .i32) (x2 : Vec F S1024x1 .f32) (x3 : Vec F S1024x1 .f32) (x4 : Vec F S1x1024 .i32) (x5 : Vec F S1x1024 .f32) (x6 : Vec F S1x1024 .f32) (xs0 : Vec F S64x1024 .f32) :
    sout0_B_0 c i arg2 harg2 arg3 harg3 arg4 harg4 arg5 harg5 arg6 harg6 arg7 harg7 arg8 harg8 arg9 harg9 arg10 harg10 hc0 hc1 x0 x1 x2 x3 x4 x5 x6 xs0 = k0_pay2 x1 x2 x3 x0 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  sl_unfold_words
  rw [View.canon_unit_zero (S := S64x1024) hz]
  simp only [View.readAt_eq_ld, harg2.read_unread, harg3.read_unread, harg4.read_unread, harg5.read_unread, harg6.read_unread, harg7.read_unread, harg8.read_unread, harg9.read_unread, harg10.read_unread, View.ld_unit_zero (S := S64x1024) hz, View.ld_unit_zero (S := S1024x1024) hz, View.ld_unit_zero (S := S1024x1) hz, View.ld_unit_zero (S := S1x1024) hz]

/-- Case C leaves the accumulator at the step of what the point before left. -/
theorem acc_last (c : Dev nD) (i : grid0.Coords) (arg2 : Memref sig .tc .vmem S64x1024 .f32) (harg2 : arg2.IsWhole) (arg3 : Memref sig .tc .vmem S1024x1024 .i32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1x1024 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S64x1024 .f32) (harg9 : arg9.IsWhole) (arg10 : Memref sig .tc .vmem S64x1024 .f32) (harg10 : arg10.IsWhole) (hc0 : ¬cond0_0 i) (hc1 : cond0_1 i)
    (x0 : Vec F S64x1024 .f32) (x1 : Vec F S1024x1024 .i32) (x2 : Vec F S1024x1 .f32) (x3 : Vec F S1024x1 .f32) (x4 : Vec F S1x1024 .i32) (x5 : Vec F S1x1024 .f32) (x6 : Vec F S1x1024 .f32) (xs0 : Vec F S64x1024 .f32) :
    sout0_C_0 c i arg2 harg2 arg3 harg3 arg4 harg4 arg5 harg5 arg6 harg6 arg7 harg7 arg8 harg8 arg9 harg9 arg10 harg10 hc0 hc1 x0 x1 x2 x3 x4 x5 x6 xs0 = k0_pay2 x1 x2 x3 x0 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero (S := S64x1024) hz]
  simp only [View.readAt_eq_ld, harg2.read_unread, harg3.read_unread, harg4.read_unread, harg5.read_unread, harg6.read_unread, harg7.read_unread, harg8.read_unread, harg9.read_unread, harg10.read_unread, View.ld_unit_zero (S := S64x1024) hz, View.ld_unit_zero (S := S1024x1024) hz, View.ld_unit_zero (S := S1024x1) hz, View.ld_unit_zero (S := S1x1024) hz]

/-- Case C leaves the output block at the epilogue of the accumulator it has just stored. -/
theorem out_last (c : Dev nD) (i : grid0.Coords) (arg2 : Memref sig .tc .vmem S64x1024 .f32) (harg2 : arg2.IsWhole) (arg3 : Memref sig .tc .vmem S1024x1024 .i32) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1x1024 .i32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S64x1024 .f32) (harg9 : arg9.IsWhole) (arg10 : Memref sig .tc .vmem S64x1024 .f32) (harg10 : arg10.IsWhole) (hc0 : ¬cond0_0 i) (hc1 : cond0_1 i)
    (x0 : Vec F S64x1024 .f32) (x1 : Vec F S1024x1024 .i32) (x2 : Vec F S1024x1 .f32) (x3 : Vec F S1024x1 .f32) (x4 : Vec F S1x1024 .i32) (x5 : Vec F S1x1024 .f32) (x6 : Vec F S1x1024 .f32) (xs0 : Vec F S64x1024 .f32) :
    out0_C_7 c i arg2 harg2 arg3 harg3 arg4 harg4 arg5 harg5 arg6 harg6 arg7 harg7 arg8 harg8 arg9 harg9 arg10 harg10 hc0 hc1 x0 x1 x2 x3 x4 x5 x6 xs0 = k0_pay3 x4 x5 x6 (k0_pay2 x1 x2 x3 x0 xs0) := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero (S := S64x1024) hz]
  simp only [View.readAt_eq_ld, harg2.read_unread, harg3.read_unread, harg4.read_unread, harg5.read_unread, harg6.read_unread, harg7.read_unread, harg8.read_unread, harg9.read_unread, harg10.read_unread, View.ld_unit_zero (S := S64x1024) hz, View.ld_unit_zero (S := S1024x1024) hz, View.ld_unit_zero (S := S1024x1) hz, View.ld_unit_zero (S := S1x1024) hz, View.readCov_unit_zero (S := S64x1024) _ hz]

end Cert.KernelIdeal.Body

end
-- ==== Proof.Blocks.lean ====
/-
  The windows' blocks, read off the whole argument arrays.

  The grid is 8 row blocks by 8 column blocks, point t at row block t / 8 and column block t % 8. At point t the
  activation block holds columns (t % 8)·1024 … of every row; the weight block holds rows (t / 8)·1024 … and the
  same columns; the scale and zero point blocks hold the column vectors' entries at those rows; the three bias
  blocks hold the row vectors' entries at those output channels. The per-channel vectors reach the region as
  reshapes of the arguments ([8192] to [8192, 1] and to [1, 8192]), which keep the row-major position.
-/
import proofs.«131830_j43894565765814_1_alg».proof.Proof.Gen.KernelIdeal.Frame
import proofs.«131830_j43894565765814_1_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Body

open Cert.KernelIdeal Cert.KernelIdeal.Gen Idealize.ShloMosaic Idealize.ShloMosaic.TcCoe Idealize.SL.Sem
open Idealize.ShloMosaic.ValueIdx Idealize.ShloMosaic.StableHlo Cert.QuantLinear

variable {F : FTy → Type} [FloatOps F]
variable (m : (ℓ : Loc nD τ sig) → Buf (Elt F) ℓ)

/-! ## Where each window's block sits, over the grid -/

theorem index_x : ∀ t : Fin cfg0.N, win0_0.index t 0 = 0 ∧ win0_0.index t 1 = t.val % 8 :=
  (by decide +kernel : ∀ t : Fin grid0.N, win0_0.index t 0 = 0 ∧ win0_0.index t 1 = t.val % 8)
theorem index_w : ∀ t : Fin cfg0.N, win0_1.index t 0 = t.val / 8 ∧ win0_1.index t 1 = t.val % 8 :=
  (by decide +kernel : ∀ t : Fin grid0.N, win0_1.index t 0 = t.val / 8 ∧ win0_1.index t 1 = t.val % 8)
theorem index_s : ∀ t : Fin cfg0.N, win0_2.index t 0 = t.val / 8 ∧ win0_2.index t 1 = 0 :=
  (by decide +kernel : ∀ t : Fin grid0.N, win0_2.index t 0 = t.val / 8 ∧ win0_2.index t 1 = 0)
theorem index_z : ∀ t : Fin cfg0.N, win0_3.index t 0 = t.val / 8 ∧ win0_3.index t 1 = 0 :=
  (by decide +kernel : ∀ t : Fin grid0.N, win0_3.index t 0 = t.val / 8 ∧ win0_3.index t 1 = 0)
theorem index_bq : ∀ t : Fin cfg0.N, win0_4.index t 0 = 0 ∧ win0_4.index t 1 = t.val / 8 :=
  (by decide +kernel : ∀ t : Fin grid0.N, win0_4.index t 0 = 0 ∧ win0_4.index t 1 = t.val / 8)
theorem index_bs : ∀ t : Fin cfg0.N, win0_5.index t 0 = 0 ∧ win0_5.index t 1 = t.val / 8 :=
  (by decide +kernel : ∀ t : Fin grid0.N, win0_5.index t 0 = 0 ∧ win0_5.index t 1 = t.val / 8)
theorem index_bz : ∀ t : Fin cfg0.N, win0_6.index t 0 = 0 ∧ win0_6.index t 1 = t.val / 8 :=
  (by decide +kernel : ∀ t : Fin grid0.N, win0_6.index t 0 = 0 ∧ win0_6.index t 1 = t.val / 8)
theorem index_o : ∀ t : Fin cfg0.N, win0_7.index t 0 = 0 ∧ win0_7.index t 1 = t.val / 8 :=
  (by decide +kernel : ∀ t : Fin grid0.N, win0_7.index t 0 = 0 ∧ win0_7.index t 1 = t.val / 8)

theorem point_lt (t : Fin cfg0.N) : t.val < 64 := lt_of_lt_of_eq t.isLt (show cfg0.N = 64 from N_0)

/-! ## The reshaped per-channel vectors, as the region finds them -/

theorem scale_col (c : Dev nD) : (V m c main_v0 : S8192x1.Idx → Elt F .f32) = shapeCast S8192x1 (m ((c : Thread nD τ).loc main_arg2)) shapeCasts_S8192_S8192x1 := by
  dsimp only [V, hostOps0]; after_results; rfl
theorem zero_col (c : Dev nD) : (V m c main_v1 : S8192x1.Idx → Elt F .f32) = shapeCast S8192x1 (m ((c : Thread nD τ).loc main_arg3)) shapeCasts_S8192_S8192x1 := by
  dsimp only [V, hostOps0]; after_results; rfl
theorem biasq_row (c : Dev nD) : (V m c main_v2 : S1x8192.Idx → Elt F .i32) = shapeCast S1x8192 (m ((c : Thread nD τ).loc main_arg4)) shapeCasts_S8192_S1x8192 := by
  dsimp only [V, hostOps0]; after_results; rfl
theorem biass_row (c : Dev nD) : (V m c main_v3 : S1x8192.Idx → Elt F .f32) = shapeCast S1x8192 (m ((c : Thread nD τ).loc main_arg5)) shapeCasts_S8192_S1x8192 := by
  dsimp only [V, hostOps0]; after_results; rfl
theorem biasz_row (c : Dev nD) : (V m c main_v4 : S1x8192.Idx → Elt F .f32) = shapeCast S1x8192 (m ((c : Thread nD τ).loc main_arg6)) shapeCasts_S8192_S1x8192 := by
  dsimp only [V, hostOps0]; after_results; rfl

/-- A vector [8192] reshaped to a column [8192, 1], read at (o, 0), is the vector at o. -/
theorem column_of_vector {α : Type} (v : S8192.Idx → α) (o : Fin 8192) :
    shapeCast S8192x1 v shapeCasts_S8192_S8192x1 (ix2 o (0 : Fin 1)) = v (ix1 o) := by
  refine shapeCast_apply v _ _ _ ?_
  rw [Shape.rowMajor_val_one, Shape.rowMajor_val_two]
  show o.val = o.val * 1 + 0
  omega

/-- A vector [8192] reshaped to a row [1, 8192], read at (0, o), is the vector at o. -/
theorem row_of_vector {α : Type} (v : S8192.Idx → α) (o : Fin 8192) :
    shapeCast S1x8192 v shapeCasts_S8192_S1x8192 (ix2 (0 : Fin 1) o) = v (ix1 o) := by
  refine shapeCast_apply v _ _ _ ?_
  rw [Shape.rowMajor_val_one, Shape.rowMajor_val_two]
  show o.val = 0 * 8192 + o.val
  omega

/-! ## The blocks at a point -/

/-- The activation block at point t, at (p, j): row p, column j of column block t % 8. -/
theorem x_block (c : Dev nD) (t : Fin cfg0.N) (p : Fin 64) (j : Fin 1024) :
    (iblk m c 0 t : Vec F S64x1024 .f32) (ix2 p j) = m ((c : Thread nD τ).loc main_arg0) (ix2 p (col t.val j)) := by
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 64 + 1 * p.val = p.val; rw [(index_x t).1]; omega
  | ⟨1, _⟩ => show win0_0.index t 1 * 1024 + 1 * j.val = (col t.val j).val; rw [(index_x t).2, col_val]; omega

/-- The weight block at point t, at (q, j): row q of row block t / 8, column j of column block t % 8. -/
theorem w_block (c : Dev nD) (t : Fin cfg0.N) (q j : Fin 1024) :
    (iblk m c 1 t : Vec F S1024x1024 .i32) (ix2 q j) = m ((c : Thread nD τ).loc main_arg1) (ix2 (row t.val q) (col t.val j)) := by
  have ht := point_lt t
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 1024 + 1 * q.val = (row t.val q).val; rw [(index_w t).1, row_val]; omega
  | ⟨1, _⟩ => show win0_1.index t 1 * 1024 + 1 * j.val = (col t.val j).val; rw [(index_w t).2, col_val]; omega

/-- The scale block at point t, at (q, 0): the scale of output channel q of row block t / 8. -/
theorem s_block (c : Dev nD) (t : Fin cfg0.N) (q : Fin 1024) :
    (iblk m c 2 t : Vec F S1024x1 .f32) (ix2 q (0 : Fin 1)) = m ((c : Thread nD τ).loc main_arg2) (ix1 (row t.val q)) := by
  have ht := point_lt t
  unfold iblk
  rw [View.read_apply]
  show V m c main_v0 _ = _
  rw [scale_col]
  refine (congrArg _ (funext fun a => Fin.ext ?_)).trans (column_of_vector _ (row t.val q))
  match a with
  | ⟨0, _⟩ => show win0_2.index t 0 * 1024 + 1 * q.val = (row t.val q).val; rw [(index_s t).1, row_val]; omega
  | ⟨1, _⟩ => show win0_2.index t 1 * 1 + 1 * 0 = 0; rw [(index_s t).2]

/-- The zero point block at point t, at (q, 0): the zero point of output channel q of row block t / 8. -/
theorem z_block (c : Dev nD) (t : Fin cfg0.N) (q : Fin 1024) :
    (iblk m c 3 t : Vec F S1024x1 .f32) (ix2 q (0 : Fin 1)) = m ((c : Thread nD τ).loc main_arg3) (ix1 (row t.val q)) := by
  have ht := point_lt t
  unfold iblk
  rw [View.read_apply]
  show V m c main_v1 _ = _
  rw [zero_col]
  refine (congrArg _ (funext fun a => Fin.ext ?_)).trans (column_of_vector _ (row t.val q))
  match a with
  | ⟨0, _⟩ => show win0_3.index t 0 * 1024 + 1 * q.val = (row t.val q).val; rw [(index_z t).1, row_val]; omega
  | ⟨1, _⟩ => show win0_3.index t 1 * 1 + 1 * 0 = 0; rw [(index_z t).2]

/-- The quantized bias block at point t, at (0, q): the entry of output channel q of row block t / 8. -/
theorem bq_block (c : Dev nD) (t : Fin cfg0.N) (q : Fin 1024) :
    (iblk m c 4 t : Vec F S1x1024 .i32) (ix2 (0 : Fin 1) q) = m ((c : Thread nD τ).loc main_arg4) (ix1 (row t.val q)) := by
  have ht := point_lt t
  unfold iblk
  rw [View.read_apply]
  show V m c main_v2 _ = _
  rw [biasq_row]
  refine (congrArg _ (funext fun a => Fin.ext ?_)).trans (row_of_vector _ (row t.val q))
  match a with
  | ⟨0, _⟩ => show win0_4.index t 0 * 1 + 1 * 0 = 0; rw [(index_bq t).1]
  | ⟨1, _⟩ => show win0_4.index t 1 * 1024 + 1 * q.val = (row t.val q).val; rw [(index_bq t).2, row_val]; omega

/-- The bias scale block at point t, at (0, q). -/
theorem bs_block (c : Dev nD) (t : Fin cfg0.N) (q : Fin 1024) :
    (iblk m c 5 t : Vec F S1x1024 .f32) (ix2 (0 : Fin 1) q) = m ((c : Thread nD τ).loc main_arg5) (ix1 (row t.val q)) := by
  have ht := point_lt t
  unfold iblk
  rw [View.read_apply]
  show V m c main_v3 _ = _
  rw [biass_row]
  refine (congrArg _ (funext fun a => Fin.ext ?_)).trans (row_of_vector _ (row t.val q))
  match a with
  | ⟨0, _⟩ => show win0_5.index t 0 * 1 + 1 * 0 = 0; rw [(index_bs t).1]
  | ⟨1, _⟩ => show win0_5.index t 1 * 1024 + 1 * q.val = (row t.val q).val; rw [(index_bs t).2, row_val]; omega

/-- The bias zero point block at point t, at (0, q). -/
theorem bz_block (c : Dev nD) (t : Fin cfg0.N) (q : Fin 1024) :
    (iblk m c 6 t : Vec F S1x1024 .f32) (ix2 (0 : Fin 1) q) = m ((c : Thread nD τ).loc main_arg6) (ix1 (row t.val q)) := by
  have ht := point_lt t
  unfold iblk
  rw [View.read_apply]
  show V m c main_v4 _ = _
  rw [biasz_row]
  refine (congrArg _ (funext fun a => Fin.ext ?_)).trans (row_of_vector _ (row t.val q))
  match a with
  | ⟨0, _⟩ => show win0_6.index t 0 * 1 + 1 * 0 = 0; rw [(index_bz t).1]
  | ⟨1, _⟩ => show win0_6.index t 1 * 1024 + 1 * q.val = (row t.val q).val; rw [(index_bz t).2, row_val]; omega

end Cert.KernelIdeal.Body

end
-- ==== Proof.Fold.lean ====
/-
  The kernel's result array is the quantized linear layer of the arguments.

  Each run of eight consecutive points t = 8r, …, 8r + 7 works on output channels 1024r … 1024r + 1023. The
  accumulator is reset at the run's first point and every point adds its column block's product, so after the
  run's last point it holds, at (p, q), zero plus the eight block sums, which together are the sum over all 8192
  input features of X(p, i) · w(1024r + q, i). The last point stores that plus the dequantized bias into the output
  block, which is written back to columns 1024r … of the result. The eight written-back blocks cover the result.
-/
import proofs.«131830_j43894565765814_1_alg».proof.Proof.Gen.KernelIdeal.Value
import proofs.«131830_j43894565765814_1_alg».proof.Proof.Spec
import proofs.«131830_j43894565765814_1_alg».proof.Proof.Payload
import proofs.«131830_j43894565765814_1_alg».proof.Proof.Pieces
import proofs.«131830_j43894565765814_1_alg».proof.Proof.Blocks
import Idealize.ShloMosaic.Lib.Pipeline.Value

set_option maxRecDepth 16384

noncomputable section

namespace Cert.KernelIdeal.Layer

open Cert.KernelIdeal Cert.KernelIdeal.Gen Cert.KernelIdeal.Body Idealize.ShloMosaic Idealize.ShloMosaic.TcCoe Idealize.SL.Sem
open Idealize.ShloMosaic.ValueIdx Cert.QuantLinear
open Idealize.ShloMosaic.Pipeline (Dat)

variable (m : (ℓ : Loc nD τ sig) → Buf (Elt Ideal) ℓ) (ρ : Dev nD → PrngReg)

/-- The seven argument arrays as launched, each at its literal type. -/
abbrev argX (c : Dev nD) : (⟨2, ![64, 8192]⟩ : Shape).Idx → EReal := m ((c : Thread nD τ).loc main_arg0)
abbrev argW (c : Dev nD) : (⟨2, ![8192, 8192]⟩ : Shape).Idx → BitVec 32 := m ((c : Thread nD τ).loc main_arg1)
abbrev argS (c : Dev nD) : (⟨1, ![8192]⟩ : Shape).Idx → EReal := m ((c : Thread nD τ).loc main_arg2)
abbrev argZ (c : Dev nD) : (⟨1, ![8192]⟩ : Shape).Idx → EReal := m ((c : Thread nD τ).loc main_arg3)
abbrev argBq (c : Dev nD) : (⟨1, ![8192]⟩ : Shape).Idx → BitVec 32 := m ((c : Thread nD τ).loc main_arg4)
abbrev argBs (c : Dev nD) : (⟨1, ![8192]⟩ : Shape).Idx → EReal := m ((c : Thread nD τ).loc main_arg5)
abbrev argBz (c : Dev nD) : (⟨1, ![8192]⟩ : Shape).Idx → EReal := m ((c : Thread nD τ).loc main_arg6)

/-- The layer's value of the arguments as launched. -/
abbrev layer (c : Dev nD) : Buf (Elt Ideal) ((c : Thread nD τ).loc main_v5) :=
  result (argX m c) (argW m c) (argS m c) (argZ m c) (argBq m c) (argBs m c) (argBz m c)

/-- What point n adds to the accumulator at (p, q): its column block's part of the dot product of X's row p with the
    dequantized weight's row q of the point's row block. -/
def addendAt (c : Dev nD) (n : ℕ) (p : Fin 64) (q : Fin 1024) : EReal :=
  ∑ j : Fin 1024, argX m c (ix2 p (col n j)) * deq (argW m c) (argS m c) (argZ m c) (row n q) (col n j)

def addend (c : Dev nD) (n : ℕ) : S64x1024.Idx → EReal := fun i => addendAt m c n (i 0) (i 1)

/-- The accumulation step at point t adds the point's addend. -/
theorem step_at (c : Dev nD) (t : Fin cfg0.N) (acc : Vec Ideal S64x1024 .f32) (i : S64x1024.Idx) :
    k0_pay2 (F := Ideal) (iblk m c 1 t) (iblk m c 2 t) (iblk m c 3 t) (iblk m c 0 t) acc i = acc i + addend m c t.val i := by
  obtain ⟨p, q, rfl⟩ : ∃ (p : Fin 64) (q : Fin 1024), i = ix2 p q := ⟨i 0, i 1, eq_ix2 i⟩
  refine (step_apply (iblk m c 1 t) (iblk m c 2 t) (iblk m c 3 t) (iblk m c 0 t) acc p q).trans ?_
  refine congrArg (acc (ix2 p q) + ·) ?_
  show _ = addendAt m c t.val p q
  unfold addendAt
  refine Finset.sum_congr rfl fun j _ => ?_
  rw [x_block m c t p j, w_block m c t q j, s_block m c t q, z_block m c t q]
  rfl

/-- At the first point of a run the accumulator is left at zero plus the point's addend. -/
theorem reset_at (c : Dev nD) (b : ℕ) (hb : b < cfg0.N) (h0 : b % 8 = 0) (i : S64x1024.Idx) :
    Value.scAt0_0 m c b hb (VS0_0.read (Elt Ideal) VS0_0.junk) i = (fun _ => (0 : EReal)) i + addend m c b i := by
  have h1 : ¬b % 8 = 7 := by omega
  unfold Value.scAt0_0
  rw [dif_pos h0, dif_neg h1, acc_first]
  refine (step_at m c ⟨b, hb⟩ _ i).trans ?_
  obtain ⟨p, q, rfl⟩ : ∃ (p : Fin 64) (q : Fin 1024), i = ix2 p q := ⟨i 0, i 1, eq_ix2 i⟩
  exact congrArg (· + addend m c b (ix2 p q)) (reset_apply p q)

/-- At every later point of a run the accumulator gains the point's addend. -/
theorem step_later (c : Dev nD) (n : ℕ) (hn : n < cfg0.N) (h0 : ¬n % 8 = 0) (acc : Vec Ideal S64x1024 .f32) (i : S64x1024.Idx) :
    Value.scAt0_0 m c n hn acc i = acc i + addend m c n i := by
  unfold Value.scAt0_0
  by_cases h1 : n % 8 = 7
  · rw [dif_neg h0, dif_pos h1, acc_last]
    exact step_at m c ⟨n, hn⟩ acc i
  · rw [dif_neg h0, dif_neg h1, acc_middle]
    exact step_at m c ⟨n, hn⟩ acc i

/-- After the last point of a run the accumulator holds zero plus the run's eight addends. -/
theorem acc_at_last (c : Dev nD) (t : Fin cfg0.N) (h7 : t.val % 8 = 7) (i : S64x1024.Idx) :
    (outsAt0 m c t.val t.isLt).2 i = 0 + ∑ s ∈ Finset.range 8, addend m c (8 * (t.val / 8) + s) i := by
  rw [Value.soutsAt0_0_eq m c t]
  have key := Pipeline.accAt_add_apply (fun n h => Value.scAt0_0 m c n h (VS0_0.read (Elt Ideal) VS0_0.junk)) (Value.scAt0_0 m c)
    (fun _ => (0 : EReal)) (addend m c) (8 * (t.val / 8)) 7
    (fun h i => reset_at m c _ h (by omega) i)
    (fun n h acc i hlt hle => step_later m c n h (by omega) acc i)
  have gen : ∀ (j : ℕ) (h : 8 * (t.val / 8) + j < cfg0.N), j = 7 →
      Pipeline.accAt (fun n h => Value.scAt0_0 m c n h (VS0_0.read (Elt Ideal) VS0_0.junk)) (Value.scAt0_0 m c) (8 * (t.val / 8)) j h i
        = 0 + ∑ s ∈ Finset.range 8, addend m c (8 * (t.val / 8) + s) i := by
    intro j h hj
    subst hj
    exact key 7 le_rfl h i
  exact gen _ _ h7

/-- At the last point of a run the output block is the epilogue of the accumulator the point leaves. -/
theorem out_at_last (c : Dev nD) (t : Fin cfg0.N) (h7 : t.val % 8 = 7) :
    (outsAt0 m c t.val t.isLt).1 = k0_pay3 (F := Ideal) (iblk m c 4 t) (iblk m c 5 t) (iblk m c 6 t) (outsAt0 m c t.val t.isLt).2 := by
  have h0 : ¬t.val % 8 = 0 := by omega
  rw [outsAt0_C m c t h0 h7]
  dsimp only
  rw [out_last, acc_last]

/-- Within a run the row block does not change. -/
theorem row_in_run (t : ℕ) (s : ℕ) (hs : s < 8) (q : Fin 1024) : row (8 * (t / 8) + s) q = row t q := by
  apply Fin.ext
  rw [row_val, row_val]
  have : (8 * (t / 8) + s) / 8 = t / 8 := by omega
  rw [this]

/-- The output block the run's last point stores, at (p, q): the layer's value at row p and output channel q of the
    run's row block. -/
theorem out_value (c : Dev nD) (t : Fin cfg0.N) (h7 : t.val % 8 = 7) (p : Fin 64) (q : Fin 1024) :
    (outsAt0 m c t.val t.isLt).1 (ix2 p q)
      = out (argX m c) (argW m c) (argS m c) (argZ m c) (argBq m c) (argBs m c) (argBz m c) p (row t.val q) := by
  rw [out_at_last m c t h7]
  refine (epilogue_apply (iblk m c 4 t) (iblk m c 5 t) (iblk m c 6 t) _ p q).trans ?_
  rw [acc_at_last m c t h7, bq_block m c t q, bs_block m c t q, bz_block m c t q, zero_add]
  unfold out
  refine congrArg (· + bias (argBq m c) (argBs m c) (argBz m c) (row t.val q)) ?_
  rw [← sum_eight_blocks (fun k => argX m c (ix2 p k) * deq (argW m c) (argS m c) (argZ m c) (row t.val q) k)
    (8 * (t.val / 8)) (by omega)]
  refine Finset.sum_congr rfl fun s hs => ?_
  show addendAt m c (8 * (t.val / 8) + s) p q = _
  unfold addendAt
  rw [row_in_run t.val s (Finset.mem_range.mp hs) q]

/-- What the run's last point writes back is its block of the layer's value. -/
theorem flushed_eq (c : Dev nD) (t : Fin cfg0.N) (hf : (cfg0.win 7).flush t = true) :
    (dats m 0 c).flushed 7 t = ((cfg0.win 7).blk t).view.read (Elt Ideal) (layer m c) := by
  have h7 : t.val % 8 = 7 := (flush0_7 t).mp hf
  have ht := point_lt t
  rw [Value.flushed7]
  funext y
  obtain ⟨p, q, rfl⟩ : ∃ (p : Fin 64) (q : Fin 1024), (y : S64x1024.Idx) = ix2 p q := ⟨y 0, y 1, eq_ix2 y⟩
  rw [View.read_apply]
  have hemb : ((cfg0.win 7).blk t).view.emb (ix2 p q) = (ix2 p (row t.val q) : S64x8192.Idx) := funext fun a => Fin.ext (by
    match a with
    | ⟨0, _⟩ => show win0_7.index t 0 * 64 + 1 * p.val = p.val; rw [(index_o t).1]; omega
    | ⟨1, _⟩ => show win0_7.index t 1 * 1024 + 1 * q.val = (row t.val q).val; rw [(index_o t).2, row_val]; omega)
  rw [hemb]
  exact out_value m c t h7 p q

/-- Every index of the result lies in the block some run's last point writes back. -/
theorem cover (i : S64x8192.Idx) : ∃ t : Fin cfg0.N, (cfg0.win 7).flush t = true ∧ i ∈ ((cfg0.win 7).blk t).view.set := by
  have h0 : (i 0).val < 64 := (i 0).isLt
  have h1 : (i 1).val < 8192 := (i 1).isLt
  have hN : cfg0.N = 64 := N_0
  have hlt : 8 * ((i 1).val / 1024) + 7 < cfg0.N := by rw [hN]; omega
  refine ⟨⟨8 * ((i 1).val / 1024) + 7, hlt⟩, (flush0_7 _).mpr (by show (8 * ((i 1).val / 1024) + 7) % 8 = 7; omega), ?_⟩
  have hidx := index_o ⟨8 * ((i 1).val / 1024) + 7, hlt⟩
  have hv : (⟨8 * ((i 1).val / 1024) + 7, hlt⟩ : Fin cfg0.N).val = 8 * ((i 1).val / 1024) + 7 := rfl
  show i ∈ ((View.whole main_v5).slice (win0_7.rect ⟨8 * ((i 1).val / 1024) + 7, hlt⟩)).set
  rw [View.set_slice_whole, Rect.mem_set_unit]
  intro a
  match a with
  | ⟨0, _⟩ =>
    show win0_7.index ⟨8 * ((i 1).val / 1024) + 7, hlt⟩ 0 * 64 ≤ (i 0).val ∧ (i 0).val < win0_7.index ⟨8 * ((i 1).val / 1024) + 7, hlt⟩ 0 * 64 + 64
    rw [hidx.1]; omega
  | ⟨1, _⟩ =>
    show win0_7.index ⟨8 * ((i 1).val / 1024) + 7, hlt⟩ 1 * 1024 ≤ (i 1).val ∧ (i 1).val < win0_7.index ⟨8 * ((i 1).val / 1024) + 7, hlt⟩ 1 * 1024 + 1024
    rw [hidx.2, hv]; omega

/-- The result array after the run. -/
theorem final (c : Dev nD) : (dats m 0 c).arrAt 7 cfg0.N = layer m c :=
  (dats m 0 c).arrAt_eq_of_cover 7 (layer m c) (fun t hf => flushed_eq m c t hf) cover

/-- The kernel's run: the result array ends at the layer's value, the arguments unchanged. -/
theorem run : θ_run defs (onTc (τ := τ) (main (F := Ideal))) ⟨m, fun _ => 0, ρ⟩ fun r => ∀ c : Dev nD,
      r.2.mem ((c : Thread nD τ).loc main_v5) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Layer

end
-- ==== Proof.lean ====
/-
  A quantized linear layer: out(r, o) = Σ_i X(r, i) · (W(o, i) · s(o) + z(o)) + (bq(o) · bs(o) + bz(o)), with W and bq
  integers and the scales and zero points per output channel.

  The kernel walks an 8 by 8 grid of 1024-wide blocks. For each block of 1024 output channels it zeroes an
  accumulator, adds the product of the activation's column block with the dequantized weight block for each of the
  eight column blocks in turn, and at the last adds the dequantized bias and writes the block of the result. The
  reference dequantizes the whole weight and takes one dot product over all 8192 input features. At the ideal
  values the narrowing to bf16 is the identity and both matrix products are plain sums, so the two differ only in
  how one sum of 8192 terms is grouped: zero plus eight consecutive partial sums of 1024 terms against the whole
  sum. Regrouping uses commutativity and associativity of addition alone, which hold on the extended reals with
  their infinities, so the inputs' finiteness is not used.

  The kernel's idealization rewrote nothing, so that it preserves the kernel holds trivially. The three programs'
  runs and unchanged arguments come from their generated frames and the generated run of the reference.
-/
import proofs.«131830_j43894565765814_1_alg».proof.Defs
import proofs.«131830_j43894565765814_1_alg».proof.Proof.Gen.Kernel
import proofs.«131830_j43894565765814_1_alg».proof.Proof.Gen.Kernel.Skeleton
import proofs.«131830_j43894565765814_1_alg».proof.Proof.Gen.Kernel.Launch
import proofs.«131830_j43894565765814_1_alg».proof.Proof.Gen.Kernel.Points
import proofs.«131830_j43894565765814_1_alg».proof.Proof.Gen.Kernel.Frame
import proofs.«131830_j43894565765814_1_alg».proof.Proof.Gen.KernelIdeal
import proofs.«131830_j43894565765814_1_alg».proof.Proof.Gen.KernelIdeal.Skeleton
import proofs.«131830_j43894565765814_1_alg».proof.Proof.Gen.KernelIdeal.Launch
import proofs.«131830_j43894565765814_1_alg».proof.Proof.Gen.KernelIdeal.Points
import proofs.«131830_j43894565765814_1_alg».proof.Proof.Gen.KernelIdeal.Frame
import proofs.«131830_j43894565765814_1_alg».proof.Proof.Gen.ReferenceIdeal
import proofs.«131830_j43894565765814_1_alg».proof.Proof.Gen.Pre_finite_inputs
import proofs.«131830_j43894565765814_1_alg».proof.Proof.Gen.KernelIdeal.Value
import proofs.«131830_j43894565765814_1_alg».proof.Proof.Gen.ReferenceIdeal.Run
import proofs.«131830_j43894565765814_1_alg».proof.Proof.Gen.ReferenceIdeal.Read
import proofs.«131830_j43894565765814_1_alg».proof.Proof.Spec
import proofs.«131830_j43894565765814_1_alg».proof.Proof.RefValue
import proofs.«131830_j43894565765814_1_alg».proof.Proof.Fold
import Idealize.ShloMosaic.Adequacy
import Idealize.ShloMosaic.Init

noncomputable section

namespace Cert.Proof

open Idealize.ShloMosaic Idealize.ShloMosaic.TcCoe Idealize.SL.Sem

/-- The kernel runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments unchanged: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the layer's value of those arguments: the kernel
    by its eight runs of eight points, the reference by its one dot product. -/
theorem algebraic : Cert.algebraic_KernelIdeal_ReferenceIdeal := by
  intro m ρ m' ρ' _ hagree
  refine ⟨fun c => Cert.KernelIdeal.Layer.layer m c, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [Cert.ReferenceIdeal.Read.val_main_v13_eq, Cert.ReferenceIdeal.RefValue.reference_eq, e0, e1, e2, e3, e4, e5, e6]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
